-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S8192x2048 : Shape := ⟨2, ![8192, 2048]⟩
abbrev S512 : Shape := ⟨1, ![512]⟩
abbrev S512x1 : Shape := ⟨2, ![512, 1]⟩
abbrev S128 : Shape := ⟨1, ![128]⟩
abbrev S1x128 : Shape := ⟨2, ![1, 128]⟩
abbrev S_ : Shape := ⟨0, ![]⟩
abbrev S512x128 : Shape := ⟨2, ![512, 128]⟩
abbrev S8192x512 : Shape := ⟨2, ![8192, 512]⟩
abbrev S1024x512 : Shape := ⟨2, ![1024, 512]⟩
abbrev S1024x128 : Shape := ⟨2, ![1024, 128]⟩

abbrev nBuf : Space → Nat
  | .hbm => 33
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S512, .i32⟩
  | .hbm, ⟨2, _⟩ => ⟨S512x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S_, .i32⟩
  | .hbm, ⟨7, _⟩ => ⟨S512x1, .i32⟩
  | .hbm, ⟨8, _⟩ => ⟨S512x1, .i32⟩
  | .hbm, ⟨9, _⟩ => ⟨S512x1, .i32⟩
  | .hbm, ⟨10, _⟩ => ⟨S_, .i32⟩
  | .hbm, ⟨11, _⟩ => ⟨S512x1, .i32⟩
  | .hbm, ⟨12, _⟩ => ⟨S512x1, .i1⟩
  | .hbm, ⟨13, _⟩ => ⟨S512x1, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S512x1, .i1⟩
  | .hbm, ⟨19, _⟩ => ⟨S_, .i32⟩
  | .hbm, ⟨20, _⟩ => ⟨S512x1, .i32⟩
  | .hbm, ⟨21, _⟩ => ⟨S512x1, .i32⟩
  | .hbm, ⟨22, _⟩ => ⟨S512x1, .i32⟩
  | .hbm, ⟨23, _⟩ => ⟨S512x128, .i32⟩
  | .hbm, ⟨24, _⟩ => ⟨S512x128, .i32⟩
  | .hbm, ⟨25, _⟩ => ⟨S512x128, .i1⟩
  | .hbm, ⟨26, _⟩ => ⟨S_, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S512x128, .bf16⟩
  | .hbm, ⟨32, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x128, .bf16⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S512_S512x1_0 : S512.BroadcastsInDim S512x1 (![0] : Fin 1 → Fin S512x1.rank)
  bcast_S128_S1x128_1 : S128.BroadcastsInDim S1x128 (![1] : Fin 1 → Fin S1x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x512.size a
  hwx0_2 : ∀ i : grid0.Coords, EltTy.bits .f32 = 32 ∨ (Rect.block (s := S8192x512) S1024x128.size (cc0_transform_2 i) (hinb0_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S_ : Shape := ⟨0, ![]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 37
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .i32⟩
  | .hbm, ⟨2, _⟩ => ⟨S2048x1, .i32⟩
  | .hbm, ⟨3, _⟩ => ⟨S512, .i32⟩
  | .hbm, ⟨4, _⟩ => ⟨S1x512, .i32⟩
  | .hbm, ⟨5, _⟩ => ⟨S_, .i32⟩
  | .hbm, ⟨6, _⟩ => ⟨S_, .i32⟩
  | .hbm, ⟨7, _⟩ => ⟨S2048x1, .i32⟩
  | .hbm, ⟨8, _⟩ => ⟨S2048x1, .i32⟩
  | .hbm, ⟨9, _⟩ => ⟨S2048x1, .i32⟩
  | .hbm, ⟨10, _⟩ => ⟨S_, .i32⟩
  | .hbm, ⟨11, _⟩ => ⟨S2048x1, .i32⟩
  | .hbm, ⟨12, _⟩ => ⟨S2048x1, .i1⟩
  | .hbm, ⟨13, _⟩ => ⟨S2048x1, .i32⟩
  | .hbm, ⟨14, _⟩ => ⟨S2048x1, .i32⟩
  | .hbm, ⟨15, _⟩ => ⟨S_, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i32⟩
  | .hbm, ⟨20, _⟩ => ⟨S2048x1, .i32⟩
  | .hbm, ⟨21, _⟩ => ⟨S2048x1, .i32⟩
  | .hbm, ⟨22, _⟩ => ⟨S2048x1, .i32⟩
  | .hbm, ⟨23, _⟩ => ⟨S2048x512, .i32⟩
  | .hbm, ⟨24, _⟩ => ⟨S2048x512, .i32⟩
  | .hbm, ⟨25, _⟩ => ⟨S2048x512, .i1⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S2048x512, .i1⟩
  | .hbm, ⟨30, _⟩ => ⟨S2048x512, .i1⟩
  | .hbm, ⟨31, _⟩ => ⟨S_, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S2048_S2048x1_0 : S2048.BroadcastsInDim S2048x1 (![0] : Fin 1 → Fin S2048x1.rank)
  bcast_S512_S1x512_1 : S512.BroadcastsInDim S1x512 (![1] : Fin 1 → Fin S1x512.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.PoolSpec.lean ====
/-
  Pooling a row's entries four by four with one weight, written as a matrix product.

  A pooling matrix has the weight `w` at (k, g) when `k / 4 = g` and zero elsewhere, so the product of a row with its
  column `g` keeps exactly the four entries of group `g`:  ∑ k, f k · P k g = ∑ d < 4, f (4 g + d) · w.
  The matrix is built from words: `k / 4` is jnp's floor division, a truncating signed division corrected by one when
  the signs of dividend and divisor differ and the remainder is not zero. For a dividend in [0, 2³¹) and the divisor 4
  the correction never applies, and the truncating division is the quotient of the values.
-/
import Idealize.ShloMosaic.Lib.ValueIdx
import Idealize.ShloMosaic.Lib.StableHlo.Predicate
import Idealize.ShloMosaic.PureOps.Ideal.Laws

noncomputable section

namespace Cert.Pool

open Idealize.ShloMosaic Idealize.ShloMosaic.ValueIdx

/-! ## Sums against a group indicator -/

/-- Of a sum over `k < n` of `f k` times "`w` if `k / 4 = g`, else `0`" only group `g`'s four terms remain. -/
theorem sum_group_indicator (n g : ℕ) (hg : 4 * g + 4 ≤ n) (f : ℕ → EReal) (w : EReal) :
    (∑ k : Fin n, f k.val * (if k.val / 4 = g then w else 0)) = ∑ d : Fin 4, f (4 * g + d.val) * w := by
  rw [Fin.sum_univ_eq_sum_range (fun k => f k * (if k / 4 = g then w else 0)) n]
  simp only [mul_ite, mul_zero]
  rw [Finset.sum_ite, Finset.sum_const_zero, add_zero]
  have hfilter : Finset.filter (fun k => k / 4 = g) (Finset.range n) = Finset.Ico (4 * g) (4 * g + 4) := by
    ext k
    simp only [Finset.mem_filter, Finset.mem_range, Finset.mem_Ico]
    omega
  rw [hfilter, Finset.sum_Ico_eq_sum_range, show 4 * g + 4 - 4 * g = 4 by omega, Finset.sum_range]

/-! ## Floor division by four on small words -/

/-- The truncating signed division of a word below 2³¹ by four is the quotient of the values. -/
theorem divsi_four (u : ArithUnit) (a : BitVec 32) (ha : a.toNat < 2 ^ 31) :
    IntOp.divsi u a 4#32 = BitVec.ofNat 32 (a.toNat / 4) := by
  have hcorner : ¬ IntOp.SDivCorner a 4#32 := by
    intro hc; rcases hc with hc | ⟨_, hc⟩ <;> exact absurd hc (by decide)
  have hm : a.msb = false := BitVec.msb_eq_false_iff_two_mul_lt.mpr (by omega)
  apply BitVec.eq_of_toNat_eq
  simp only [IntOp.divsi, if_neg hcorner, BitVec.sdiv_eq, hm, show (4#32 : BitVec 32).msb = false from by decide, BitVec.udiv_eq,
    BitVec.toNat_udiv, BitVec.toNat_ofNat, Nat.reducePow, Nat.reduceMod]
  omega

/-- The remainder of zero by four is zero. -/
theorem remsi_zero_four (u : ArithUnit) : IntOp.remsi u (0 : BitVec 32) 4#32 = 0 := by
  have hcorner : ¬ IntOp.SDivCorner (0 : BitVec 32) 4#32 := by
    intro hc; rcases hc with hc | ⟨_, hc⟩ <;> exact absurd hc (by decide)
  simp only [IntOp.remsi, if_neg hcorner]
  decide

/-- The same with the row given on `Fin n` and the matrix column by its entries. -/
theorem sum_mul_group_column (n g : ℕ) (hg : 4 * g + 4 ≤ n) (f P : Fin n → EReal) (w : EReal)
    (hP : ∀ k : Fin n, P k = if k.val / 4 = g then w else 0) :
    (∑ k : Fin n, f k * P k) = ∑ d : Fin 4, f ⟨4 * g + d.val, by have := d.isLt; omega⟩ * w := by
  have e := sum_group_indicator n g hg (fun k => if h : k < n then f ⟨k, h⟩ else 0) w
  simp only [Fin.is_lt, dite_true, Fin.eta] at e
  rw [show (∑ k : Fin n, f k * P k) = ∑ k : Fin n, f k * (if k.val / 4 = g then w else 0) from
    Finset.sum_congr rfl fun k _ => by rw [hP k], e]
  refine Finset.sum_congr rfl fun d _ => ?_
  rw [dif_pos (by have := d.isLt; omega)]

/-! ## The pooled array -/

/-- Row `b`, group `c` of the pooled array: the four entries `x (b, 4c + d)`, each times the weight, summed. -/
def pooled {B N C : ℕ} (hN : 4 * C ≤ N) (w : EReal) (x : (⟨2, ![B, N]⟩ : Shape).Idx → EReal) :
    (⟨2, ![B, C]⟩ : Shape).Idx → EReal :=
  fun i => ∑ d : Fin 4, x (ix2 (i 0) ⟨4 * (i 1).val + d.val, by have := idx2_lt1 i; have := d.isLt; omega⟩) * w

/-! ## The pooling matrix, entry by entry -/

section Table

open Idealize.ShloMosaic.StableHlo.Predicate

/-- jnp's `floor_divide (·, 4)` on 32-bit words: the truncating quotient, less one where the signs of dividend and
    divisor differ and the remainder is not zero. -/
def floorDiv4 {s : Shape} (hs : (⟨0, ![]⟩ : Shape).BroadcastsInDim s ![]) (a : IVec s 32) : IVec s 32 :=
  select
    (andi (cmpi .ne (signi a) (broadcastInDim s ![] hs (signi (id (constantI ⟨0, ![]⟩ 32 4#32)))))
      (cmpi .ne (Host.remsi a (broadcastInDim s ![] hs (id (constantI ⟨0, ![]⟩ 32 4#32))))
        (broadcastInDim s ![] hs (constantI ⟨0, ![]⟩ 32 0#32))))
    (subi (Host.divsi a (broadcastInDim s ![] hs (id (constantI ⟨0, ![]⟩ 32 4#32))))
      (broadcastInDim s ![] hs (constantI ⟨0, ![]⟩ 32 1#32)))
    (Host.divsi a (broadcastInDim s ![] hs (id (constantI ⟨0, ![]⟩ 32 4#32))))

/-- On a word in [0, 2³¹) it is the quotient of the value by four: a zero dividend has a zero remainder, a positive one
    the divisor's sign, so the correction is never taken. -/
theorem floorDiv4_apply {s : Shape} (hs : (⟨0, ![]⟩ : Shape).BroadcastsInDim s ![]) (a : IVec s 32) (i : s.Idx)
    (ha : (a i).toNat < 2 ^ 31) : floorDiv4 hs a i = BitVec.ofNat 32 ((a i).toNat / 4) := by
  show Scalar.select
      (IntOp.andi
        (IntOp.cmpi .ne (if a i = 0 then 0 else if (a i).msb then -1 else 1)
          (if (4#32 : BitVec 32) = 0 then (0 : BitVec 32) else if (4#32 : BitVec 32).msb then -1 else 1))
        (IntOp.cmpi .ne (IntOp.remsi .host (a i) 4#32) 0#32))
      (IntOp.subi (IntOp.divsi .host (a i) 4#32) 1#32) (IntOp.divsi .host (a i) 4#32) = _
  have hcond : IntOp.andi
        (IntOp.cmpi .ne (if a i = 0 then 0 else if (a i).msb then -1 else 1)
          (if (4#32 : BitVec 32) = 0 then (0 : BitVec 32) else if (4#32 : BitVec 32).msb then -1 else 1))
        (IntOp.cmpi .ne (IntOp.remsi .host (a i) 4#32) 0#32) = 0#1 := by
    by_cases h0 : a i = 0
    · rw [h0, remsi_zero_four]; decide
    · have hm : (a i).msb = false := BitVec.msb_eq_false_iff_two_mul_lt.mpr (by omega)
      rw [if_neg h0, hm]
      show (IntOp.cmpi .ne (1 : BitVec 32) (if (4#32 : BitVec 32) = 0 then (0 : BitVec 32) else if (4#32 : BitVec 32).msb then -1 else 1))
        &&& _ = 0#1
      rw [show IntOp.cmpi .ne (1 : BitVec 32) (if (4#32 : BitVec 32) = 0 then (0 : BitVec 32) else if (4#32 : BitVec 32).msb then -1 else 1)
        = 0#1 from by decide, BitVec.zero_and]
  rw [hcond, select_zero, divsi_four _ _ ha]

variable {n m : ℕ}

/-- The group mask of an [n × m] pooling matrix: at (p, q), whether row `p`'s quotient by four is column `q`. -/
def groupMask (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨1, ![m]⟩ : Shape).BroadcastsInDim ⟨2, ![1, m]⟩ ![1])
    (h₄ : (⟨2, ![1, m]⟩ : Shape).BroadcastsInDim ⟨2, ![n, m]⟩ ![0, 1])
    (hs : (⟨0, ![]⟩ : Shape).BroadcastsInDim ⟨2, ![n, 1]⟩ ![]) : IVec ⟨2, ![n, m]⟩ 1 :=
  cmpi .eq
    (broadcastInDim ⟨2, ![n, m]⟩ ![0, 1] h₂
      (floorDiv4 hs (broadcastInDim ⟨2, ![n, 1]⟩ ![0] h₁ (iotaInDim ⟨1, ![n]⟩ 32 0))))
    (broadcastInDim ⟨2, ![n, m]⟩ ![0, 1] h₄ (broadcastInDim ⟨2, ![1, m]⟩ ![1] h₃ (iotaInDim ⟨1, ![m]⟩ 32 0)))

/-- The column of row numbers, as words, at row `p`. -/
theorem rows_apply (h₁ : (⟨1, ![n]⟩ : Shape).BroadcastsInDim ⟨2, ![n, 1]⟩ ![0]) (p : Fin n) :
    broadcastInDim ⟨2, ![n, 1]⟩ ![0] h₁ (iotaInDim ⟨1, ![n]⟩ 32 0) (ixP p) = BitVec.ofNat 32 p.val := by
  rw [bcast_col1, iota_apply]

theorem groupMask_apply (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨1, ![m]⟩ : Shape).BroadcastsInDim ⟨2, ![1, m]⟩ ![1])
    (h₄ : (⟨2, ![1, m]⟩ : Shape).BroadcastsInDim ⟨2, ![n, m]⟩ ![0, 1])
    (hs : (⟨0, ![]⟩ : Shape).BroadcastsInDim ⟨2, ![n, 1]⟩ ![]) (hn : n ≤ 2 ^ 31) (hm : m ≤ 2 ^ 31) (p : Fin n) (q : Fin m) :
    groupMask h₁ h₂ h₃ h₄ hs (ij p q) = 1#1 ↔ p.val / 4 = q.val := by
  have hp := p.isLt
  have hq := q.isLt
  show IntOp.cmpi .eq
      (broadcastInDim ⟨2, ![n, m]⟩ ![0, 1] h₂
        (floorDiv4 hs (broadcastInDim ⟨2, ![n, 1]⟩ ![0] h₁ (iotaInDim ⟨1, ![n]⟩ 32 0))) (ij p q))
      (broadcastInDim ⟨2, ![n, m]⟩ ![0, 1] h₄ (broadcastInDim ⟨2, ![1, m]⟩ ![1] h₃ (iotaInDim ⟨1, ![m]⟩ 32 0)) (ij p q)) = 1#1 ↔ _
  have hrow : (broadcastInDim ⟨2, ![n, 1]⟩ ![0] h₁ (iotaInDim ⟨1, ![n]⟩ 32 0) (ixP p)).toNat = p.val := by
    rw [rows_apply, BitVec.toNat_ofNat]; exact Nat.mod_eq_of_lt (by omega)
  rw [cmpi_eq_iff, bcast_of_col, bcast_cols, iota_apply, floorDiv4_apply hs _ _ (by rw [hrow]; omega), hrow]
  constructor
  · intro h
    have := congrArg BitVec.toNat h
    simp only [BitVec.toNat_ofNat] at this
    omega
  · intro h; rw [h]

/-- A bit and one is the bit. -/
theorem andi_one_bit (x : BitVec 1) : IntOp.andi x 1#1 = x := by
  rcases BitVec.eq_zero_or_eq_one x with rfl | rfl <;> decide

/-- "The row number is below the limit `L`", laid along the rows of an [n × m] rectangle. -/
def rowLimitMask (h₁ : (⟨1, ![n]⟩ : Shape).BroadcastsInDim ⟨2, ![n, 1]⟩ ![0])
    (h₂ : (⟨2, ![n, 1]⟩ : Shape).BroadcastsInDim ⟨2, ![n, m]⟩ ![0, 1])
    (hs : (⟨0, ![]⟩ : Shape).BroadcastsInDim ⟨2, ![n, 1]⟩ ![]) (L : BitVec 32) : IVec ⟨2, ![n, m]⟩ 1 :=
  broadcastInDim ⟨2, ![n, m]⟩ ![0, 1] h₂
    (cmpi .slt (broadcastInDim ⟨2, ![n, 1]⟩ ![0] h₁ (iotaInDim ⟨1, ![n]⟩ 32 0))
      (broadcastInDim ⟨2, ![n, 1]⟩ ![] hs (constantI ⟨0, ![]⟩ 32 L)))

/-- With every row number below the limit the mask is all ones. -/
theorem rowLimitMask_apply (h₁ : (⟨1, ![n]⟩ : Shape).BroadcastsInDim ⟨2, ![n, 1]⟩ ![0])
    (h₂ : (⟨2, ![n, 1]⟩ : Shape).BroadcastsInDim ⟨2, ![n, m]⟩ ![0, 1])
    (hs : (⟨0, ![]⟩ : Shape).BroadcastsInDim ⟨2, ![n, 1]⟩ ![]) (L : BitVec 32) (hL : L.toNat < 2 ^ 31) (hn : n ≤ L.toNat)
    (p : Fin n) (q : Fin m) : rowLimitMask h₁ h₂ hs L (ij p q) = 1#1 := by
  have hp := p.isLt
  unfold rowLimitMask
  rw [bcast_of_col]
  show IntOp.cmpi .slt (broadcastInDim ⟨2, ![n, 1]⟩ ![0] h₁ (iotaInDim ⟨1, ![n]⟩ 32 0) (ixP p)) L = 1#1
  have hrow : (broadcastInDim ⟨2, ![n, 1]⟩ ![0] h₁ (iotaInDim ⟨1, ![n]⟩ 32 0) (ixP p)).toNat = p.val := by
    rw [rows_apply, BitVec.toNat_ofNat]; exact Nat.mod_eq_of_lt (by omega)
  rw [slt_iff_toNat (by rw [hrow]; omega) hL, hrow]
  omega

/-- The group mask and an all-ones mask: the group mask. -/
theorem andi_groupMask_apply (a b : IVec ⟨2, ![n, m]⟩ 1) (i : (⟨2, ![n, m]⟩ : Shape).Idx) (hb : b i = 1#1) :
    andi a b i = a i := by
  show IntOp.andi (a i) (b i) = a i
  rw [hb, andi_one_bit]

/-- The pooling weights from a mask: one half where the mask is set, zero elsewhere. -/
def weights {s : Shape} (h0 : (⟨0, ![]⟩ : Shape).BroadcastsInDim s ![]) (mask : IVec s 1) : FVec Ideal s .f32 :=
  select mask (broadcastInDim s ![] h0 (constant (F := Ideal) ⟨0, ![]⟩ .f32 0x3F000000#32))
    (broadcastInDim s ![] h0 (constant (F := Ideal) ⟨0, ![]⟩ .f32 0x00000000#32))

theorem weights_apply {s : Shape} (h0 : (⟨0, ![]⟩ : Shape).BroadcastsInDim s ![]) (mask : IVec s 1) (i : s.Idx) :
    weights h0 mask i = if mask i = 1#1 then Ideal.ofBits .f32 0x3F000000#32 else 0 := by
  show Scalar.select (mask i) (Ideal.ofBits .f32 0x3F000000#32) (Ideal.ofBits .f32 0x00000000#32) = _
  rw [Ideal.ofBits_zero_f32]
  rfl

end Table

end Cert.Pool

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelValue.lean ====
/-
  The tiled pooling kernel's result array, at the exact reals.

  Grid point (i, j) multiplies the 1024 × 512 tile of `x` at block (i, j) by the 512 × 128 pooling matrix, whose entry
  (k, g) is one half when `k / 4 = g` and zero otherwise, and writes the 1024 × 128 product to block (i, j) of the
  result. Entry (r, g) of that product is ∑ k, x (1024 i + r, 512 j + k) · P (k, g), of which only the four terms of
  group `g` remain: the pooled value of row `1024 i + r` and group `128 j + g`, because 4 · (128 j + g) = 512 j + 4 g.
  The 32 blocks tile the result, so the whole array is the pooled array.
-/
import proofs.«130266_g2000405914644724_pallasbulk_993_2_alg».proof.Proof.Gen.KernelIdeal.Value
import proofs.«130266_g2000405914644724_pallasbulk_993_2_alg».proof.Proof.PoolSpec
import proofs.«130266_g2000405914644724_pallasbulk_993_2_alg».proof.Proof.LibDense
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.PoolValue

open Cert.KernelIdeal Cert.KernelIdeal.Gen Idealize.ShloMosaic Idealize.ShloMosaic.TcCoe Idealize.SL.Sem
open Idealize.ShloMosaic.ValueIdx Idealize.ShloMosaic.StableHlo.Predicate
open Idealize.ShloMosaic.Pipeline (Dat)

variable (m : (ℓ : Loc nD τ sig) → Buf (Elt Ideal) ℓ) (ρ : Dev nD → PrngReg)

/-! ## The pooling matrix the region finds -/

/-- The host operations before the region leave the matrix of weights from the group mask. -/
theorem table_eq (c : Dev nD) :
    (V m c main_v9 : FVec Ideal S512x128 .bf16)
      = truncf .bf16 (Cert.Pool.weights Facts₀.bcast_S_S512x128
          (Cert.Pool.groupMask Facts₀.bcast_S512_S512x1_0 Facts₀.bcast_S512x1_S512x128_0_1 Facts₀.bcast_S128_S1x128_1
            Facts₀.bcast_S1x128_S512x128_0_1 Facts₀.bcast_S_S512x1))
          Facts₀.bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [cast_eq]
  rfl

/-- Entry (k, g) of it is one half when `k / 4 = g`, zero otherwise. -/
theorem table_apply (c : Dev nD) (k : Fin 512) (g : Fin 128) :
    (V m c main_v9 : FVec Ideal S512x128 .bf16) (ix2 k g)
      = if k.val / 4 = g.val then Ideal.ofBits .f32 0x3F000000#32 else 0 := by
  rw [table_eq]
  have e : (ix2 k g : S512x128.Idx) = ij k g := funext fun a => by match a with | ⟨0, _⟩ => rfl | ⟨1, _⟩ => rfl
  rw [truncf_apply, Cert.Pool.weights_apply, e]
  exact if_congr (Cert.Pool.groupMask_apply _ _ _ _ _ (by norm_num) (by norm_num) k g) rfl rfl

/-! ## The body's product, entry by entry -/

/-- Entry (r, g) of the body's product is the row-by-column sum. -/
theorem product_apply (x0 : Vec Ideal S1024x512 .f32) (x1 : Vec Ideal S512x128 .bf16) (r : Fin 1024) (g : Fin 128) :
    k0_pay1 x0 x1 (ix2 r g) = ∑ k : Fin 512, x0 (ix2 r k) * x1 (ix2 k g) := by
  unfold k0_pay1
  show FloatOps.matmul (DotDims.plain 1024 512 128) none (truncf .bf16 x0 Facts₀.bitsLt_bf16_f32)
      (shapeCast S512x128 x1 Facts₀.shapeCasts_S512x128_S512x128 : FVec Ideal S512x128 .bf16) (constant ⟨2, ![1024, 128]⟩ .f32 0x00000000#32) (ix2 r g) = _
  rw [Cert.LibDense.matmul_plain_zero_apply, shapeCast_self]
  rfl

/-! ## The blocks a point reads -/

/-- The argument array, the tile of it and the matrix a point reads, at their literal types. -/
abbrev xarr (c : Dev nD) : FVec Ideal S8192x2048 .f32 := V m c main_arg0
abbrev xblk (c : Dev nD) (t : Fin cfg0.N) : Vec Ideal S1024x512 .f32 := iblk m c 0 t
abbrev pblk (c : Dev nD) (t : Fin cfg0.N) : Vec Ideal S512x128 .bf16 := iblk m c 1 t

theorem hz : (![0, 0] : Fin 2 → Nat) = fun _ => 0 := funext fun a => by fin_cases a <;> rfl

/-- The index maps over the grid: the tile of `x` moves with the output block, the matrix stays, and the output's block
    indices range over 8 × 4. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) ≤ 7 ∧ win0_2.index t (1 : Fin 2) ≤ 3 :=
  (by decide +kernel : ∀ t : Fin grid0.N, _)

/-- Every block of the 8 × 4 box is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- Entry (r, k) of the tile at point `t` is the array's entry at the tile's offset. -/
theorem xblk_apply (c : Dev nD) (t : Fin cfg0.N) (r : Fin 1024) (k : Fin 512) (b : Fin 8192) (col : Fin 2048)
    (hb : b.val = win0_2.index t (0 : Fin 2) * 1024 + r.val) (hcol : col.val = win0_2.index t (1 : Fin 2) * 512 + k.val) :
    xblk m c t (ix2 r k) = xarr m c (ix2 b col) := by
  obtain ⟨e0, e1, -, -, -, -⟩ := idx_facts t
  show V m c main_arg0 (((cfg0.win 0).blk t).view.emb (ix2 r k)) = V m c main_arg0 (ix2 b col)
  congr 1
  funext a; apply Fin.ext
  match a with
  | ⟨0, _⟩ => show win0_0.index t (0 : Fin 2) * 1024 + 1 * r.val = b.val; omega
  | ⟨1, _⟩ => show win0_0.index t (1 : Fin 2) * 512 + 1 * k.val = col.val; omega

/-- The matrix a point reads is the whole pooling matrix. -/
theorem pblk_apply (c : Dev nD) (t : Fin cfg0.N) (k : Fin 512) (g : Fin 128) :
    pblk m c t (ix2 k g) = if k.val / 4 = g.val then Ideal.ofBits .f32 0x3F000000#32 else 0 := by
  obtain ⟨-, -, e2, e3, -, -⟩ := idx_facts t
  rw [← table_apply m c k g]
  show V m c main_v9 (((cfg0.win 1).blk t).view.emb (ix2 k g)) = V m c main_v9 (ix2 k g)
  congr 1
  funext a; apply Fin.ext
  match a with
  | ⟨0, _⟩ => show win0_1.index t (0 : Fin 2) * 512 + 1 * k.val = k.val; omega
  | ⟨1, _⟩ => show win0_1.index t (1 : Fin 2) * 128 + 1 * g.val = g.val; omega

/-! ## From blocks to the array -/

/-- The pooled array of the argument array with weight one half. -/
abbrev pooledArr (x : FVec Ideal S8192x2048 .f32) : FVec Ideal S8192x512 .f32 :=
  Cert.Pool.pooled (B := 8192) (N := 2048) (C := 512) (by norm_num) (Ideal.ofBits .f32 0x3F000000#32) x

/-- What point `t` writes back is block `t` of the pooled array. -/
theorem flushed_eq (c : Dev nD) (t : Fin cfg0.N) :
    (dats m 0 c).flushed 2 t = ((cfg0.win 2).blk t).view.read (Elt Ideal) (pooledArr (xarr m c)) := by
  rw [Value.flushed2]
  unfold out0_2
  rw [View.canon_unit_zero hz]
  simp only [View.ld_unit_zero (S := S1024x512) hz, View.ld_unit_zero (S := S512x128) hz]
  funext y
  obtain ⟨r, g, rfl⟩ : ∃ (r : Fin 1024) (g : Fin 128), y = ix2 r g := ⟨y 0, y 1, eq_ix2 y⟩
  show k0_pay1 (xblk m c t) (pblk m c t) (ix2 r g) = pooledArr (xarr m c) (((cfg0.win 2).blk t).view.emb (ix2 r g))
  have hr := r.isLt
  have hg := g.isLt
  rw [product_apply, Cert.Pool.sum_mul_group_column 512 g.val (by omega) (fun k => xblk m c t (ix2 r k))
    (fun k => pblk m c t (ix2 k g)) (Ideal.ofBits .f32 0x3F000000#32) (fun k => pblk_apply m c t k g)]
  refine Finset.sum_congr rfl fun d _ => ?_
  have hd := d.isLt
  refine congrArg (· * Ideal.ofBits .f32 0x3F000000#32) (xblk_apply m c t r _ _ _ ?_ ?_)
  · show (((cfg0.win 2).blk t).view.emb (ix2 r g) 0).val = win0_2.index t (0 : Fin 2) * 1024 + r.val
    show win0_2.index t (0 : Fin 2) * 1024 + 1 * r.val = _
    omega
  · show 4 * (((cfg0.win 2).blk t).view.emb (ix2 r g) 1).val + d.val = win0_2.index t (1 : Fin 2) * 512 + (4 * g.val + d.val)
    show 4 * (win0_2.index t (1 : Fin 2) * 128 + 1 * g.val) + d.val = _
    omega

/-- An index of the result is in point `t`'s block iff each coordinate is in the block's range on its axis. -/
theorem mem_blk (t : Fin cfg0.N) (i : S8192x512.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v10).slice (win0_2.rect t)).set ↔ _
  rw [View.set_slice_whole, Rect.mem_set_unit]
  exact Iff.rfl

/-- The 8 × 4 blocks tile the result: row `b`, column `c` lies in block (b / 1024, c / 128). -/
theorem cover (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx_onto ⟨(i 0).val / 1024, by omega⟩ ⟨(i 1).val / 128, by omega⟩
  have q0 : win0_2.index t (0 : Fin 2) = (i 0).val / 1024 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The result array after the run is the pooled array of the argument as launched. -/
theorem final (c : Dev nD) :
    (dats m 0 c).arrAt 2 cfg0.N = pooledArr (m ((c : Thread nD τ).loc main_arg0)) := by
  rw [(dats m 0 c).arrAt_eq_of_cover 2 (pooledArr (xarr m c)) (fun t _ => flushed_eq m c t) cover]
  show pooledArr (V m c main_arg0) = _
  rw [V_main_arg0]

/-- The run: the result at the pooled array of the argument, the argument unchanged. -/
theorem run : θ_run defs (onTc (τ := τ) (main (F := Ideal))) ⟨m, fun _ => 0, ρ⟩ fun r => ∀ c : Dev nD,
      r.2.mem ((c : Thread nD τ).loc main_v10) = pooledArr (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PoolValue

end
-- ==== Proof.RefValue.lean ====
/-
  The reference's result array, at the exact reals.

  The reference multiplies each 1024 × 2048 tile of rows of `x` by the whole 2048 × 512 pooling matrix, whose entry
  (k, c) is one half when `k / 4 = c` (and `k < 2048`, which every row number is) and zero otherwise. Entry (r, c) of the
  product of row tile `i` is ∑ k, x (1024 i + r, k) · P (k, c), of which only the four terms of group `c` remain: the
  pooled value of row `1024 i + r` and group `c`. The eight row tiles fill the result.
-/
import proofs.«130266_g2000405914644724_pallasbulk_993_2_alg».proof.Proof.Gen.ReferenceIdeal.Value
import proofs.«130266_g2000405914644724_pallasbulk_993_2_alg».proof.Proof.PoolSpec
import proofs.«130266_g2000405914644724_pallasbulk_993_2_alg».proof.Proof.LibDense
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.PoolValue

open Cert.ReferenceIdeal Cert.ReferenceIdeal.Gen Idealize.ShloMosaic Idealize.ShloMosaic.TcCoe Idealize.SL.Sem
open Idealize.ShloMosaic.ValueIdx Idealize.ShloMosaic.StableHlo.Predicate
open Idealize.ShloMosaic.Pipeline (Dat)

variable (m : (ℓ : Loc nD τ sig) → Buf (Elt Ideal) ℓ) (ρ : Dev nD → PrngReg)

/-! ## The pooling matrix the region finds -/

/-- The host operations before the region leave the matrix of weights from the group mask and the row-limit mask. -/
theorem table_eq (c : Dev nD) :
    (V m c main_v12 : FVec Ideal S2048x512 .f32)
      = Cert.Pool.weights Facts₀.bcast_S_S2048x512
          (andi
            (Cert.Pool.groupMask Facts₀.bcast_S2048_S2048x1_0 Facts₀.bcast_S2048x1_S2048x512_0_1 Facts₀.bcast_S512_S1x512_1
              Facts₀.bcast_S1x512_S2048x512_0_1 Facts₀.bcast_S_S2048x1)
            (Cert.Pool.rowLimitMask Facts₀.bcast_S2048_S2048x1_0 Facts₀.bcast_S2048x1_S2048x512_0_1 Facts₀.bcast_S_S2048x1 2048#32)) := by
  dsimp only [Gen.V]
  simp only [Gen.hostOps0, Gen.hostOps0_1, Gen.hostOps0_2, Gen.hostOps0_3, List.flatten_cons, List.flatten_nil,
    List.append_nil, List.cons_append, List.nil_append]
  after_results_simp
  simp only [cast_eq]
  rfl

/-- Entry (k, g) of it is one half when `k / 4 = g`, zero otherwise. -/
theorem table_apply (c : Dev nD) (k : Fin 2048) (g : Fin 512) :
    (V m c main_v12 : FVec Ideal S2048x512 .f32) (ix2 k g)
      = if k.val / 4 = g.val then Ideal.ofBits .f32 0x3F000000#32 else 0 := by
  rw [table_eq]
  have e : (ix2 k g : S2048x512.Idx) = ij k g := funext fun a => by match a with | ⟨0, _⟩ => rfl | ⟨1, _⟩ => rfl
  rw [Cert.Pool.weights_apply, e, Cert.Pool.andi_groupMask_apply _ _ _
    (Cert.Pool.rowLimitMask_apply _ _ _ 2048#32 (by decide) (by decide) k g)]
  exact if_congr (Cert.Pool.groupMask_apply _ _ _ _ _ (by norm_num) (by norm_num) k g) rfl rfl

/-! ## The body's product, entry by entry -/

/-- Entry (r, g) of the body's product is the row-by-column sum. -/
theorem product_apply (x0 : Vec Ideal S1024x2048 .f32) (x1 : Vec Ideal S2048x512 .f32) (r : Fin 1024) (g : Fin 512) :
    k0_pay1 x0 x1 (ix2 r g) = ∑ k : Fin 2048, x0 (ix2 r k) * x1 (ix2 k g) := by
  unfold k0_pay1
  show FloatOps.matmul (DotDims.plain 1024 2048 512) (some .fp32) (x0 : FVec Ideal S1024x2048 .f32)
      (shapeCast S2048x512 x1 Facts₀.shapeCasts_S2048x512_S2048x512 : FVec Ideal S2048x512 .f32)
      (constant ⟨2, ![1024, 512]⟩ .f32 0x00000000#32) (ix2 r g) = _
  rw [Cert.LibDense.matmul_plain_zero_apply, shapeCast_self]

/-! ## The blocks a point reads -/

/-- The argument array, the row tile of it and the matrix a point reads, at their literal types. -/
abbrev xarr (c : Dev nD) : FVec Ideal S8192x2048 .f32 := V m c main_arg0
abbrev xblk (c : Dev nD) (t : Fin cfg0.N) : Vec Ideal S1024x2048 .f32 := iblk m c 0 t
abbrev pblk (c : Dev nD) (t : Fin cfg0.N) : Vec Ideal S2048x512 .f32 := iblk m c 1 t

theorem hz : (![0, 0] : Fin 2 → Nat) = fun _ => 0 := funext fun a => by fin_cases a <;> rfl

/-- The index maps over the grid: the row tile of `x` moves with the output block, the matrix stays, and the output's
    block indices are (i, 0) for i below 8. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 7 ∧ win0_2.index t (1 : Fin 2) = 0 :=
  (by decide +kernel : ∀ t : Fin grid0.N, _)

/-- Every row tile is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- Entry (r, k) of the row tile at point `t` is the array's entry at the tile's row offset. -/
theorem xblk_apply (c : Dev nD) (t : Fin cfg0.N) (r : Fin 1024) (k : Fin 2048) (b : Fin 8192)
    (hb : b.val = win0_2.index t (0 : Fin 2) * 1024 + r.val) :
    xblk m c t (ix2 r k) = xarr m c (ix2 b k) := by
  obtain ⟨e0, e1, -, -, -, -⟩ := idx_facts t
  show V m c main_arg0 (((cfg0.win 0).blk t).view.emb (ix2 r k)) = V m c main_arg0 (ix2 b k)
  congr 1
  funext a; apply Fin.ext
  match a with
  | ⟨0, _⟩ => show win0_0.index t (0 : Fin 2) * 1024 + 1 * r.val = b.val; omega
  | ⟨1, _⟩ => show win0_0.index t (1 : Fin 2) * 2048 + 1 * k.val = k.val; omega

/-- The matrix a point reads is the whole pooling matrix. -/
theorem pblk_apply (c : Dev nD) (t : Fin cfg0.N) (k : Fin 2048) (g : Fin 512) :
    pblk m c t (ix2 k g) = if k.val / 4 = g.val then Ideal.ofBits .f32 0x3F000000#32 else 0 := by
  obtain ⟨-, -, e2, e3, -, -⟩ := idx_facts t
  rw [← table_apply m c k g]
  show V m c main_v12 (((cfg0.win 1).blk t).view.emb (ix2 k g)) = V m c main_v12 (ix2 k g)
  congr 1
  funext a; apply Fin.ext
  match a with
  | ⟨0, _⟩ => show win0_1.index t (0 : Fin 2) * 2048 + 1 * k.val = k.val; omega
  | ⟨1, _⟩ => show win0_1.index t (1 : Fin 2) * 512 + 1 * g.val = g.val; omega

/-! ## From blocks to the array -/

/-- The pooled array of the argument array with weight one half. -/
abbrev pooledArr (x : FVec Ideal S8192x2048 .f32) : FVec Ideal S8192x512 .f32 :=
  Cert.Pool.pooled (B := 8192) (N := 2048) (C := 512) (by norm_num) (Ideal.ofBits .f32 0x3F000000#32) x

/-- What point `t` writes back is block `t` of the pooled array. -/
theorem flushed_eq (c : Dev nD) (t : Fin cfg0.N) :
    (dats m 0 c).flushed 2 t = ((cfg0.win 2).blk t).view.read (Elt Ideal) (pooledArr (xarr m c)) := by
  rw [Value.flushed2]
  unfold out0_2
  rw [View.canon_unit_zero hz]
  simp only [View.ld_unit_zero (S := S1024x2048) hz, View.ld_unit_zero (S := S2048x512) hz]
  funext y
  obtain ⟨r, g, rfl⟩ : ∃ (r : Fin 1024) (g : Fin 512), y = ix2 r g := ⟨y 0, y 1, eq_ix2 y⟩
  show k0_pay1 (xblk m c t) (pblk m c t) (ix2 r g) = pooledArr (xarr m c) (((cfg0.win 2).blk t).view.emb (ix2 r g))
  obtain ⟨-, -, -, -, -, e5⟩ := idx_facts t
  have hr := r.isLt
  have hg := g.isLt
  rw [product_apply, Cert.Pool.sum_mul_group_column 2048 g.val (by omega) (fun k => xblk m c t (ix2 r k))
    (fun k => pblk m c t (ix2 k g)) (Ideal.ofBits .f32 0x3F000000#32) (fun k => pblk_apply m c t k g)]
  refine Finset.sum_congr rfl fun d _ => ?_
  have hd := d.isLt
  refine congrArg (· * Ideal.ofBits .f32 0x3F000000#32) ?_
  have hcol : (⟨4 * g.val + d.val, by omega⟩ : Fin 2048)
      = ⟨4 * (((cfg0.win 2).blk t).view.emb (ix2 r g) 1).val + d.val, by
          show 4 * (win0_2.index t (1 : Fin 2) * 512 + 1 * g.val) + d.val < 2048; omega⟩ := by
    apply Fin.ext
    show 4 * g.val + d.val = 4 * (win0_2.index t (1 : Fin 2) * 512 + 1 * g.val) + d.val
    omega
  rw [xblk_apply m c t r _ (((cfg0.win 2).blk t).view.emb (ix2 r g) 0) (by
    show win0_2.index t (0 : Fin 2) * 1024 + 1 * r.val = _; omega), hcol]

/-- An index of the result is in point `t`'s block iff each coordinate is in the block's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v13).slice (win0_2.rect t)).set ↔ _
  rw [View.set_slice_whole, Rect.mem_set_unit]
  exact Iff.rfl

/-- The eight row tiles fill the result: row `b` lies in tile `b / 1024`. -/
theorem cover (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the pooled array of the argument as launched. -/
theorem final (c : Dev nD) :
    (dats m 0 c).arrAt 2 cfg0.N = pooledArr (m ((c : Thread nD τ).loc main_arg0)) := by
  rw [(dats m 0 c).arrAt_eq_of_cover 2 (pooledArr (xarr m c)) (fun t _ => flushed_eq m c t) cover]
  show pooledArr (V m c main_arg0) = _
  rw [V_main_arg0]

/-- The run: the result at the pooled array of the argument, the argument unchanged. -/
theorem run : θ_run defs (onTc (τ := τ) (main (F := Ideal))) ⟨m, fun _ => 0, ρ⟩ fun r => ∀ c : Dev nD,
      r.2.mem ((c : Thread nD τ).loc main_v13) = pooledArr (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.ReferenceIdeal.PoolValue

end
-- ==== Proof.lean ====
/-
  Grouped mean pooling with gain √k (k = 4): out (b, c) = ½ · (x (b, 4c) + x (b, 4c+1) + x (b, 4c+2) + x (b, 4c+3)),
  computed by both programs as a matrix product with a pooling matrix whose entry (k, g) is ½ when k / 4 = g and zero
  otherwise.

  The kernel tiles `x` into 1024 × 512 blocks and multiplies each by one 512 × 128 pooling matrix; the reference
  multiplies 1024 × 2048 row tiles by the whole 2048 × 512 matrix. On the extended reals a change of float format is the
  identity and a term times zero is zero, so each product entry keeps exactly the four terms of its group, and both
  result arrays are the same pooled array of the argument (Proof/KernelValue.lean, Proof/RefValue.lean over
  Proof/PoolSpec.lean). No finiteness of `x` is needed: only sums are regrouped and zero terms dropped.

  The three frames are the programs' frame runs; the idealization rewrote nothing, so `preserves` is trivial.
-/
import proofs.«130266_g2000405914644724_pallasbulk_993_2_alg».proof.Defs
import proofs.«130266_g2000405914644724_pallasbulk_993_2_alg».proof.Proof.Gen.Kernel
import proofs.«130266_g2000405914644724_pallasbulk_993_2_alg».proof.Proof.Gen.Kernel.Skeleton
import proofs.«130266_g2000405914644724_pallasbulk_993_2_alg».proof.Proof.Gen.Kernel.Launch
import proofs.«130266_g2000405914644724_pallasbulk_993_2_alg».proof.Proof.Gen.Kernel.Points
import proofs.«130266_g2000405914644724_pallasbulk_993_2_alg».proof.Proof.Gen.Kernel.Frame
import proofs.«130266_g2000405914644724_pallasbulk_993_2_alg».proof.Proof.Gen.KernelIdeal
import proofs.«130266_g2000405914644724_pallasbulk_993_2_alg».proof.Proof.Gen.KernelIdeal.Skeleton
import proofs.«130266_g2000405914644724_pallasbulk_993_2_alg».proof.Proof.Gen.KernelIdeal.Launch
import proofs.«130266_g2000405914644724_pallasbulk_993_2_alg».proof.Proof.Gen.KernelIdeal.Points
import proofs.«130266_g2000405914644724_pallasbulk_993_2_alg».proof.Proof.Gen.KernelIdeal.Frame
import proofs.«130266_g2000405914644724_pallasbulk_993_2_alg».proof.Proof.Gen.ReferenceIdeal
import proofs.«130266_g2000405914644724_pallasbulk_993_2_alg».proof.Proof.Gen.ReferenceIdeal.Skeleton
import proofs.«130266_g2000405914644724_pallasbulk_993_2_alg».proof.Proof.Gen.ReferenceIdeal.Launch
import proofs.«130266_g2000405914644724_pallasbulk_993_2_alg».proof.Proof.Gen.ReferenceIdeal.Points
import proofs.«130266_g2000405914644724_pallasbulk_993_2_alg».proof.Proof.Gen.ReferenceIdeal.Frame
import proofs.«130266_g2000405914644724_pallasbulk_993_2_alg».proof.Proof.Gen.Pre_finite_inputs
import proofs.«130266_g2000405914644724_pallasbulk_993_2_alg».proof.Proof.Gen.KernelIdeal.Value
import proofs.«130266_g2000405914644724_pallasbulk_993_2_alg».proof.Proof.Gen.ReferenceIdeal.Value
import proofs.«130266_g2000405914644724_pallasbulk_993_2_alg».proof.Proof.KernelValue
import proofs.«130266_g2000405914644724_pallasbulk_993_2_alg».proof.Proof.RefValue
import Idealize.ShloMosaic.Adequacy
import Idealize.ShloMosaic.Init

noncomputable section

namespace Cert.Proof

open Idealize.ShloMosaic Idealize.SL.Sem

/-- Both programs end with the pooled array of the argument: the kernel's 32 blocks and the reference's 8 row tiles
    each hold, entry by entry, the four terms of the entry's group times one half. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.PoolValue.pooledArr (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.PoolValue.run m' ρ')
  rw [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
